-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S16384x128 : Shape := ⟨2, ![16384, 128]⟩
abbrev S100000x128 : Shape := ⟨2, ![100000, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_

variable [Facts]

def fn {F : FTy → Type} [FloatOps F] (main_arg0 : IVec S16384 32) (main_arg1 : FVec F S16384x128 .f32) (main_arg2 : FVec F S100000x128 .f32) : IVec S_ 1 :=
  let main_v0 : FVec F S16384x128 .f32 := Host.absf main_arg1
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  main_v8
-- ==== Kernel.lean ====
abbrev S16384 : Shape := ⟨1, ![16384]⟩
abbrev S16384x128 : Shape := ⟨2, ![16384, 128]⟩
abbrev S100000x128 : Shape := ⟨2, ![100000, 128]⟩
abbrev S_ : Shape := ⟨0, ![]⟩
abbrev S100000 : Shape := ⟨1, ![100000]⟩
abbrev S16384x1 : Shape := ⟨2, ![16384, 1]⟩
abbrev S100000x1 : Shape := ⟨2, ![100000, 1]⟩
abbrev S5000x128 : Shape := ⟨2, ![5000, 128]⟩
abbrev S5000x1 : Shape := ⟨2, ![5000, 1]⟩

abbrev nBuf : Space → Nat
  | .hbm => 30
  | .vmem => 8
  | .smem => 0
  | _ => 0

abbrev bufTy : (tb : Table) → Fin (tcTables nBuf tb) → BufTy
  | .hbm, ⟨0, _⟩ => ⟨S16384, .i32⟩
  | .hbm, ⟨1, _⟩ => ⟨S16384x128, .f32⟩
  | .hbm, ⟨2, _⟩ => ⟨S100000x128, .f32⟩
  | .hbm, ⟨3, _⟩ => ⟨S_, .f32⟩
  | .hbm, ⟨4, _⟩ => ⟨S16384, .f32⟩
  | .hbm, ⟨5, _⟩ => ⟨S_, .f32⟩
  | .hbm, ⟨6, _⟩ => ⟨S100000, .f32⟩
  | .hbm, ⟨7, _⟩ => ⟨S16384x1, .i32⟩
  | .hbm, ⟨8, _⟩ => ⟨S100000, .f32⟩
  | .hbm, ⟨9, _⟩ => ⟨S_, .f32⟩
  | .hbm, ⟨10, _⟩ => ⟨S100000x128, .f32⟩
  | .hbm, ⟨11, _⟩ => ⟨S16384x1, .i32⟩
  | .hbm, ⟨12, _⟩ => ⟨S100000x128, .f32⟩
  | .hbm, ⟨13, _⟩ => ⟨S100000x1, .f32⟩
  | .hbm, ⟨14, _⟩ => ⟨S100000x128, .f32⟩
  | .hbm, ⟨15, _⟩ => ⟨S_, .i32⟩
  | .hbm, ⟨16, _⟩ => ⟨S16384, .i32⟩
  | .hbm, ⟨17, _⟩ => ⟨S16384, .i1⟩
  | .hbm, ⟨18, _⟩ => ⟨S_, .i32⟩
  | .hbm, ⟨19, _⟩ => ⟨S16384, .i32⟩
  | .hbm, ⟨20, _⟩ => ⟨S16384, .i32⟩
  | .hbm, ⟨21, _⟩ => ⟨S16384, .i32⟩
  | .hbm, ⟨22, _⟩ => ⟨S16384x1, .i32⟩
  | .hbm, ⟨23, _⟩ => ⟨S16384x128, .f32⟩
  | .hbm, ⟨24, _⟩ => ⟨S16384x128, .f32⟩
  | .hbm, ⟨25, _⟩ => ⟨S16384x128, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S5000x128, .f32⟩
  | .local _ .vmem, ⟨7, _⟩ => ⟨S5000x128, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S16384 : S_.BroadcastsInDim S16384 (![] : Fin 0 → Fin S16384.rank)
  bcast_S_S100000 : S_.BroadcastsInDim S100000 (![] : Fin 0 → Fin S100000.rank)
  bcast_S16384_S16384x1_0 : S16384.BroadcastsInDim S16384x1 (![0] : Fin 1 → Fin S16384x1.rank)
  bcast_S_S100000x128 : S_.BroadcastsInDim S100000x128 (![] : Fin 0 → Fin S100000x128.rank)
  shapeCasts_S100000_S100000x1 : S100000.ShapeCasts S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  reducesTo_S16384x128_S_d0_1 : S16384x128.ReducesTo [0, 1] S_
  h_S_ : 0 < S_.numel
  scatter_S100000_S16384x1_S16384_n_0_0_1_wf : ScatterDims.WF S100000 S16384x1 S16384 [] [0] [0] 1
  scatter_S100000x128_S16384x1_S16384x128_1_0_0_1_wf : ScatterDims.WF S100000x128 S16384x1 S16384x128 [1] [0] [0] 1
  gather_S100000x128_S16384x1_S16384x128_1_0_n_n_0_1_1128_wf : GatherDims.WF S100000x128 S16384x1 S16384x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)

variable [Facts₀]

def scatter_S100000_S16384x1_S16384_n_0_0_1 : ScatterDims S100000 S16384x1 S16384 where
  updateWindowDims := []
  insertedWindowDims := [0]
  scatterDimsToOperandDims := [0]
  indexVectorDim := 1
  wf := scatter_S100000_S16384x1_S16384_n_0_0_1_wf
def scatter_S100000x128_S16384x1_S16384x128_1_0_0_1 : ScatterDims S100000x128 S16384x1 S16384x128 where
  updateWindowDims := [1]
  insertedWindowDims := [0]
  scatterDimsToOperandDims := [0]
  indexVectorDim := 1
  wf := scatter_S100000x128_S16384x1_S16384x128_1_0_0_1_wf
def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf

abbrev win0_0 : Pipeline.Window sig grid0 :=
  Pipeline.Window.ofSpec (Memref.whole main_arg2) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384 : Shape := ⟨1, ![16384]⟩
abbrev S16384x128 : Shape := ⟨2, ![16384, 128]⟩
abbrev S100000x128 : Shape := ⟨2, ![100000, 128]⟩
abbrev S_ : Shape := ⟨0, ![]⟩
abbrev S100000 : Shape := ⟨1, ![100000]⟩
abbrev S16384x1 : Shape := ⟨2, ![16384, 1]⟩
abbrev S100000x1 : Shape := ⟨2, ![100000, 1]⟩

abbrev nBuf : Space → Nat
  | .hbm => 42
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384x128, .f32⟩
  | .hbm, ⟨2, _⟩ => ⟨S100000x128, .f32⟩
  | .hbm, ⟨3, _⟩ => ⟨S_, .f32⟩
  | .hbm, ⟨4, _⟩ => ⟨S16384, .f32⟩
  | .hbm, ⟨5, _⟩ => ⟨S_, .f32⟩
  | .hbm, ⟨6, _⟩ => ⟨S100000, .f32⟩
  | .hbm, ⟨7, _⟩ => ⟨S16384x1, .i32⟩
  | .hbm, ⟨8, _⟩ => ⟨S100000, .f32⟩
  | .hbm, ⟨9, _⟩ => ⟨S_, .f32⟩
  | .hbm, ⟨10, _⟩ => ⟨S100000x128, .f32⟩
  | .hbm, ⟨11, _⟩ => ⟨S16384x1, .i32⟩
  | .hbm, ⟨12, _⟩ => ⟨S100000x128, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S100000x1, .f32⟩
  | .hbm, ⟨17, _⟩ => ⟨S100000x128, .f32⟩
  | .hbm, ⟨18, _⟩ => ⟨S100000x128, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S100000x128, .f32⟩
  | .hbm, ⟨25, _⟩ => ⟨S100000x128, .f32⟩
  | .hbm, ⟨26, _⟩ => ⟨S100000x128, .f32⟩
  | .hbm, ⟨27, _⟩ => ⟨S_, .i32⟩
  | .hbm, ⟨28, _⟩ => ⟨S16384, .i32⟩
  | .hbm, ⟨29, _⟩ => ⟨S16384, .i1⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S16384, .i32⟩
  | .hbm, ⟨34, _⟩ => ⟨S16384x1, .i32⟩
  | .hbm, ⟨35, _⟩ => ⟨S16384x128, .f32⟩
  | .hbm, ⟨36, _⟩ => ⟨S16384x128, .f32⟩
  | .hbm, ⟨37, _⟩ => ⟨S16384x128, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S_S100000 : S_.BroadcastsInDim S100000 (![] : Fin 0 → Fin S100000.rank)
  bcast_S16384_S16384x1_0 : S16384.BroadcastsInDim S16384x1 (![0] : Fin 1 → Fin S16384x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  reducesTo_S16384x128_S_d0_1 : S16384x128.ReducesTo [0, 1] S_
  h_S_ : 0 < S_.numel
  scatter_S100000_S16384x1_S16384_n_0_0_1_wf : ScatterDims.WF S100000 S16384x1 S16384 [] [0] [0] 1
  scatter_S100000x128_S16384x1_S16384x128_1_0_0_1_wf : ScatterDims.WF S100000x128 S16384x1 S16384x128 [1] [0] [0] 1
  gather_S100000x128_S16384x1_S16384x128_1_0_n_n_0_1_1128_wf : GatherDims.WF S100000x128 S16384x1 S16384x128 [1] [0] [] [0] [] 1 ![1, 128]

variable [Facts₀]

def scatter_S100000_S16384x1_S16384_n_0_0_1 : ScatterDims S100000 S16384x1 S16384 where
  updateWindowDims := []
  insertedWindowDims := [0]
  scatterDimsToOperandDims := [0]
  indexVectorDim := 1
  wf := scatter_S100000_S16384x1_S16384_n_0_0_1_wf
def scatter_S100000x128_S16384x1_S16384x128_1_0_0_1 : ScatterDims S100000x128 S16384x1 S16384x128 where
  updateWindowDims := [1]
  insertedWindowDims := [0]
  scatterDimsToOperandDims := [0]
  indexVectorDim := 1
  wf := scatter_S100000x128_S16384x1_S16384x128_1_0_0_1_wf
def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf

class Facts : Prop extends Facts₀ where

variable [Facts]
-- ==== Proof.Spec.lean ====
/-
  The centre-loss gradient as one function of three arrays.

  For class `r` with `n r` samples, feature sum `s (r, e)` and centre `c (r, e)`, the gradient of the centre is
  `n r / (1 + n r) · (c (r, e) − s (r, e) / max (n r) 1)`: the class mean (zero for an empty class, whose sum is
  zero) subtracted from the centre and damped by `n / (1 + n)`. Every operation is the extended reals' own; the
  quotient is the ideal instance's division, which both programs use.
-/
import Idealize.ShloMosaic.PureOps.Ideal
import Idealize.ShloMosaic.Lib.ValueIdx

noncomputable section

namespace Cert.CentreGrad

open Idealize.ShloMosaic Idealize.ShloMosaic.ValueIdx

/-- The class table's shape: 100000 classes of 128 features. -/
abbrev Tbl : Shape := ⟨2, ![100000, 128]⟩

/-- The number one as both programs spell it. -/
abbrev one : Ideal .f32 := Ideal.ofBits .f32 0x3F800000#32

/-- One entry of the gradient from the class's count `n`, the centre's entry `c` and the feature sum's entry `s`. -/
def entry (n c s : Ideal .f32) : Ideal .f32 :=
  Ideal.div n (one + n) * (c - Ideal.div s (max n one))

/-- The gradient of every centre: entry `(r, e)` from class `r`'s count and the two tables' entries `(r, e)`. -/
def grad (cen fs : FVec Ideal Tbl .f32) (cnt : Fin 100000 → Ideal .f32) : FVec Ideal Tbl .f32 :=
  fun i => entry (cnt (i 0)) (cen i) (fs i)

theorem grad_apply (cen fs : FVec Ideal Tbl .f32) (cnt : Fin 100000 → Ideal .f32) (r : Fin 100000) (e : Fin 128) :
    grad cen fs cnt (ix2 r e) = entry (cnt r) (cen (ix2 r e)) (fs (ix2 r e)) := rfl

end Cert.CentreGrad

end
-- ==== Proof.BlockValue.lean ====
/-
  What the kernel body stores, entry by entry.

  At a grid point the body holds a 5000-row block of the centres, the matching block of the feature sums and the
  matching 5000 × 1 column of counts. The column is broadcast along the 128 features, so entry `(p, q)` of the stored
  block is the gradient's entry from row `p`'s count and the two blocks' entries `(p, q)`.
-/
import proofs.«107613_j60885456388837_1_alg».proof.Proof.Gen.KernelIdeal.Skeleton
import proofs.«107613_j60885456388837_1_alg».proof.Proof.Spec
import Idealize.ShloMosaic.Lib.ValueIdx
import Idealize.ShloMosaic.Lib.Pipeline.Value

noncomputable section

namespace Cert.KernelIdeal.Block

open Cert.KernelIdeal Cert.KernelIdeal.Gen Idealize.ShloMosaic Idealize.ShloMosaic.ValueIdx Cert.CentreGrad

/-- A 5000 × 1 column broadcast along the features reads, at `(p, q)`, the column at `(p, 0)`. -/
theorem column_apply (v : FVec Ideal S5000x1 .f32) (p : Fin 5000) (q : Fin 128) :
    broadcastTo S5000x128 v broadcasts_S5000x1_S5000x128 (ix2 p q) = v (ix2 p 0) :=
  broadcastTo_apply v broadcasts_S5000x1_S5000x128 (ix2 p q) (ix2 p 0) (fun a => match a with
    | ⟨0, _⟩ => by show p.val = if (5000 : Nat) = 1 then 0 else p.val; rw [if_neg (by decide)]
    | ⟨1, _⟩ => by show 0 = if (1 : Nat) = 1 then 0 else q.val; rw [if_pos rfl])

/-- The stored block at `(p, q)`: the gradient's entry from the count in row `p` of the column `n`, the centre block
    `c` and the feature-sum block `s` at `(p, q)`. -/
theorem body_apply (n : Vec Ideal S5000x1 .f32) (s c : Vec Ideal S5000x128 .f32) (p : Fin 5000) (q : Fin 128) :
    k0_pay1 (F := Ideal) n s c (ix2 p q) = entry (n (ix2 p 0)) (c (ix2 p q)) (s (ix2 p q)) := by
  unfold k0_pay1 entry
  simp only [shapeCast_self, mulf_apply, subf_apply, divf_apply, column_apply, maximumf_apply, addf_apply, broadcast_apply]
  rfl

end Cert.KernelIdeal.Block

end
-- ==== Proof.KernelArray.lean ====
/-
  The kernel's output array after the run, as the gradient of the arrays the region finds.

  The grid has 20 points; point `t` stages rows `5000·t … 5000·t + 4999` of the centres, of the feature sums and of
  the count column, and writes the same rows of the output. So what point `t` writes back is block `t` of ONE function
  of the three arrays — the gradient — and the 20 blocks tile the 100000 rows.
-/
import proofs.«107613_j60885456388837_1_alg».proof.Proof.Gen.KernelIdeal.Frame
import proofs.«107613_j60885456388837_1_alg».proof.Proof.BlockValue
import Idealize.ShloMosaic.Lib.Pipeline.Value

set_option maxRecDepth 16384

noncomputable section

namespace Cert.KernelIdeal.Array

open Cert.KernelIdeal Cert.KernelIdeal.Gen Idealize.ShloMosaic Idealize.ShloMosaic.TcCoe Idealize.SL.Sem
open Idealize.ShloMosaic.ValueIdx Cert.CentreGrad
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- Every window's block at point `t` is block row `t`, block column 0. -/
theorem rows_of_point : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The gradient of the arrays as the region finds them: the centres, the feature sums, and the counts read off
    the count column. -/
abbrev found (c : Dev nD) : FVec Ideal Tbl .f32 :=
  grad (V m c main_arg2) (V m c main_v6) (fun r => V m c main_v7 (ix2 r 0))

/-- What point `t` writes back is block `t` of the gradient. -/
theorem flushed_eq (c : Dev nD) (t : Fin cfg0.N) :
    (dats m 0 c).flushed 3 t = ((cfg0.win 3).blk t).view.read (Elt Ideal) (found m c) := by
  show (cfg0.win 3).cut (grid0.coords t) ((dats m 0 c).after 3 t) = _
  rw [after0_3]
  unfold out0_3
  rw [View.canon_unit_zero origin]
  simp only [View.ld_unit_zero (S := S5000x128) origin, View.ld_unit_zero (S := S5000x1) origin]
  obtain ⟨e00, e01, e10, e11, e20, e21, e30, e31⟩ := rows_of_point t
  have hN : cfg0.N = 20 := N_0
  have ht : t.val < 20 := hN ▸ t.isLt
  funext j
  obtain ⟨p, q, rfl⟩ : ∃ (p : Fin 5000) (q : Fin 128), j = ix2 p q := ⟨j 0, j 1, eq_ix2 j⟩
  have hp : p.val < 5000 := p.isLt
  refine (Cert.KernelIdeal.Block.body_apply (iblk m c 2 t) (iblk m c 1 t) (iblk m c 0 t) p q).trans ?_
  have h0 : ((cfg0.win 0).blk t).view.emb (ix2 p q) = ix2 (⟨t.val * 5000 + p.val, by omega⟩ : Fin 100000) q := by
    funext a; apply Fin.ext
    match a with
    | ⟨0, _⟩ => show win0_0.index t (0 : Fin 2) * 5000 + 1 * p.val = t.val * 5000 + p.val; omega
    | ⟨1, _⟩ => show win0_0.index t (1 : Fin 2) * 128 + 1 * q.val = q.val; omega
  have h1 : ((cfg0.win 1).blk t).view.emb (ix2 p q) = ix2 (⟨t.val * 5000 + p.val, by omega⟩ : Fin 100000) q := by
    funext a; apply Fin.ext
    match a with
    | ⟨0, _⟩ => show win0_1.index t (0 : Fin 2) * 5000 + 1 * p.val = t.val * 5000 + p.val; omega
    | ⟨1, _⟩ => show win0_1.index t (1 : Fin 2) * 128 + 1 * q.val = q.val; omega
  have h2 : ((cfg0.win 2).blk t).view.emb (ix2 p (0 : Fin 1)) = ix2 (⟨t.val * 5000 + p.val, by omega⟩ : Fin 100000) (0 : Fin 1) := by
    funext a; apply Fin.ext
    match a with
    | ⟨0, _⟩ => show win0_2.index t (0 : Fin 2) * 5000 + 1 * p.val = t.val * 5000 + p.val; omega
    | ⟨1, _⟩ => show win0_2.index t (1 : Fin 2) * 1 + 1 * 0 = 0; omega
  have h3 : ((cfg0.win 3).blk t).view.emb (ix2 p q) = ix2 (⟨t.val * 5000 + p.val, by omega⟩ : Fin 100000) q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  show entry (V m c main_v7 (((cfg0.win 2).blk t).view.emb (ix2 p (0 : Fin 1))))
      (V m c main_arg2 (((cfg0.win 0).blk t).view.emb (ix2 p q)))
      (V m c main_v6 (((cfg0.win 1).blk t).view.emb (ix2 p q)))
    = grad (V m c main_arg2) (V m c main_v6) (fun r => V m c main_v7 (ix2 r 0)) (((cfg0.win 3).blk t).view.emb (ix2 p q))
  rw [h0, h1, h2, h3, grad_apply]

/-- An index of the output array is in point `t`'s block iff each coordinate is in the block's range on its axis. -/
theorem mem_block (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v8).slice (win0_3.rect t)).set ↔ _
  rw [View.set_slice_whole, Rect.mem_set_unit]
  exact Iff.rfl

/-- Row `r` of the output is written by point `r / 5000`. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  have hlt : (i 0).val / 5000 < cfg0.N := by rw [hN]; omega
  obtain ⟨-, -, -, -, -, -, e30, e31⟩ := rows_of_point ⟨(i 0).val / 5000, hlt⟩
  have e30' : win0_3.index ⟨(i 0).val / 5000, hlt⟩ (0 : Fin 2) = (i 0).val / 5000 := e30
  refine ⟨⟨(i 0).val / 5000, hlt⟩, flush0_3 _, ?_⟩
  rw [mem_block]
  intro a
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    omega
  | ⟨1, _⟩ =>
    show win0_3.index ⟨(i 0).val / 5000, hlt⟩ (1 : Fin 2) * 128 ≤ (i 1).val ∧ (i 1).val < win0_3.index ⟨(i 0).val / 5000, hlt⟩ (1 : Fin 2) * 128 + 128
    omega

/-- The output array after the run is the gradient of the arrays the region finds. -/
theorem final (c : Dev nD) : (dats m 0 c).arrAt 3 cfg0.N = found m c :=
  (dats m 0 c).arrAt_eq_of_cover 3 (found m c) (fun t _ => flushed_eq m c t) covered

end Cert.KernelIdeal.Array

end
-- ==== Proof.KernelRun.lean ====
/-
  The idealized kernel program's run, with both results named.

  Before the region the program counts the samples of each class and sums their features (two scatter-adds over
  the labels) and lays the counts out as a column; the region writes the gradient; after it the program gathers
  each sample's centre and returns the loss, 0.005 times the sum of the squared differences. The loss reads only
  the three arguments, which the region leaves as they were.
-/
import proofs.«107613_j60885456388837_1_alg».proof.Proof.Gen.KernelIdeal.Frame
import proofs.«107613_j60885456388837_1_alg».proof.Proof.KernelArray
import Idealize.ShloMosaic.Lib.StableHlo.Run
import Idealize.ShloMosaic.Lib.Pipeline.Value
import Idealize.ShloMosaic.PureOps.Ideal

set_option maxRecDepth 16384

noncomputable section

namespace Cert.KernelIdeal.Run

open Cert.KernelIdeal Cert.KernelIdeal.Gen Idealize.ShloMosaic Idealize.ShloMosaic.TcCoe Idealize.SL.Sem
open Idealize.ShloMosaic.StableHlo Idealize.ShloMosaic.ValueIdx Cert.CentreGrad
open Idealize.ShloMosaic.Pipeline (Dat)

variable (m : (ℓ : Loc nD τ sig) → Buf (Elt Ideal) ℓ) (ρ : Dev nD → PrngReg)

/-- How many samples carry each class label: ones scattered onto zeros. -/
def counts (y : IVec S16384 32) : FVec Ideal S100000 .f32 :=
  Host.scatterAdd (F := Ideal) scatter_S100000_S16384x1_S16384_n_0_0_1
    (broadcastInDim S100000 ![] bcast_S_S100000 (constant (F := Ideal) S_ .f32 0x00000000#32))
    (broadcastInDim S16384x1 ![0] bcast_S16384_S16384x1_0 y)
    (broadcastInDim S16384 ![] bcast_S_S16384 (constant (F := Ideal) S_ .f32 0x3F800000#32))

/-- The sum of the features of each class's samples: the feature rows scattered onto zeros. -/
def featSums (y : IVec S16384 32) (feat : FVec Ideal S16384x128 .f32) : FVec Ideal S100000x128 .f32 :=
  Host.scatterAdd (F := Ideal) scatter_S100000x128_S16384x1_S16384x128_1_0_0_1
    (broadcastInDim S100000x128 ![] bcast_S_S100000x128 (constant (F := Ideal) S_ .f32 0x00000000#32))
    (broadcastInDim S16384x1 ![0] bcast_S16384_S16384x1_0 y)
    feat

/-- Each sample's difference from its class's centre (a negative label counted from the end). -/
def offsets (y : IVec S16384 32) (feat : FVec Ideal S16384x128 .f32) (cen : FVec Ideal S100000x128 .f32) :
    FVec Ideal S16384x128 .f32 :=
  subf (F := Ideal) feat (Host.gather gather_S100000x128_S16384x1_S16384x128_1_0_n_n_0_1_1128 cen
    (broadcastInDim S16384x1 ![0] bcast_S16384_S16384x1_0
      (select (cmpi .slt y (broadcastInDim S16384 ![] bcast_S_S16384 (constantI S_ 32 0#32)))
        (addi y (broadcastInDim S16384 ![] bcast_S_S16384 (constantI S_ 32 100000#32))) y)))

/-- The loss: 0.005 times the sum of the squared differences. -/
def loss (y : IVec S16384 32) (feat : FVec Ideal S16384x128 .f32) (cen : FVec Ideal S100000x128 .f32) : FVec Ideal S_ .f32 :=
  mulf (F := Ideal) (constant (F := Ideal) S_ .f32 0x3BA3D70A#32)
    (Host.reduceAdd (F := Ideal) (mulf (F := Ideal) (offsets y feat cen) (offsets y feat cen)) (constant (F := Ideal) S_ .f32 0x00000000#32)
      reducesTo_S16384x128_S_d0_1 h_S_)

/-! ## The arrays the region finds -/

/-- The region finds the feature sums in its second window's array. -/
theorem featSums_found (c : Dev nD) :
    (V m c main_v6 : (⟨S100000x128, .f32⟩ : BufTy).Contents (Elt Ideal))
      = featSums (m ((c : Thread nD τ).loc main_arg0)) (m ((c : Thread nD τ).loc main_arg1)) := by
  show StableHlo.after hostOps0 (fun b => m (c, b)) (Proc.devRef .tc main_v6) = _
  after_results
  rfl

/-- The region finds the counts, laid out as a column, in its third window's array. -/
theorem counts_found (c : Dev nD) :
    (V m c main_v7 : (⟨S100000x1, .f32⟩ : BufTy).Contents (Elt Ideal))
      = shapeCast S100000x1 (counts (m ((c : Thread nD τ).loc main_arg0))) shapeCasts_S100000_S100000x1 := by
  show StableHlo.after hostOps0 (fun b => m (c, b)) (Proc.devRef .tc main_v7) = _
  after_results
  rfl

/-- Row `r` of the column is class `r`'s count. -/
theorem column_row (v : FVec Ideal S100000 .f32) (r : Fin 100000) :
    shapeCast S100000x1 v shapeCasts_S100000_S100000x1 (ix2 r (0 : Fin 1)) = v (ix1 r) :=
  shapeCast_apply v shapeCasts_S100000_S100000x1 (ix2 r (0 : Fin 1)) (ix1 r) (by
    rw [Shape.rowMajor_val_one, Shape.rowMajor_val_two]
    show r.val = r.val * 1 + 0
    omega)

/-- The output array after the run: the gradient of the centres, the feature sums and the counts. -/
theorem final_eq (c : Dev nD) :
    (dats m 0 c).arrAt 3 cfg0.N
      = grad (m ((c : Thread nD τ).loc main_arg2))
          (featSums (m ((c : Thread nD τ).loc main_arg0)) (m ((c : Thread nD τ).loc main_arg1)))
          (fun r => counts (m ((c : Thread nD τ).loc main_arg0)) (ix1 r)) := by
  rw [Cert.KernelIdeal.Array.final]
  unfold Cert.KernelIdeal.Array.found
  rw [V_main_arg2, featSums_found, counts_found]
  exact congrArg (grad _ _) (funext fun r => column_row _ r)

/-! ## The lines after the region -/

/-- The lines after the region find the labels as launched. -/
theorem tail_labels (c : Dev nD) :
    Pipeline.withArrays (cfgs 0).spec c (V0 m c) (fun w => (dats m 0 c).arrAt w (cfgs 0).N) (Proc.devRef .tc main_arg0)
      = m ((c : Thread nD τ).loc main_arg0) := by
  rw [Pipeline.withArrays_of_ne _ c (V0 m c) _ main_arg0 (by exact (by decide : ∀ w, Pipeline.arrRef spec0 w ≠ main_arg0))]
  exact V_main_arg0 m c

/-- They find the features as launched. -/
theorem tail_features (c : Dev nD) :
    Pipeline.withArrays (cfgs 0).spec c (V0 m c) (fun w => (dats m 0 c).arrAt w (cfgs 0).N) (Proc.devRef .tc main_arg1)
      = m ((c : Thread nD τ).loc main_arg1) := by
  rw [Pipeline.withArrays_of_ne _ c (V0 m c) _ main_arg1 (by exact (by decide : ∀ w, Pipeline.arrRef spec0 w ≠ main_arg1))]
  exact V_main_arg1 m c

/-- They find the centres as launched: the region stages them and never writes them back. -/
theorem tail_centres (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_arr spec0 launch0.win.arr_inj c _ _ 0).trans
    (((dats m 0 c).arrAt_in 0 rfl _).trans ((A_eq m c 0).trans (V_main_arg2 m c)))

/-- The first result after the run is the loss of the arguments. -/
theorem loss_eq (c : Dev nD) :
    Pipeline.afterTail₀ cfgs (dats m) 0 (V0 m) [hostOps1] c main_v19
      = loss (m ((c : Thread nD τ).loc main_arg0)) (m ((c : Thread nD τ).loc main_arg1)) (m ((c : Thread nD τ).loc main_arg2)) := by
  unfold Pipeline.afterTail₀
  show StableHlo.after hostOps1 _ (Proc.devRef .tc main_v19) = _
  after_results
  rw [tail_labels, tail_features, tail_centres]
  rfl

/-! ## The run -/

/-- Every weakly fair execution of the idealized kernel program terminates with the loss in its first result, the
    gradient in its second, and the arguments as launched. -/
theorem run : θ_run defs (onTc (τ := τ) (main (F := Ideal))) ⟨m, fun _ => 0, ρ⟩ fun r => ∀ c : Dev nD,
      r.2.mem ((c.tc : Thread nD τ).loc main_v19)
        = loss (m ((c : Thread nD τ).loc main_arg0)) (m ((c : Thread nD τ).loc main_arg1)) (m ((c : Thread nD τ).loc main_arg2))
      ∧ r.2.mem ((c.tc : Thread nD τ).loc main_v8)
        = grad (m ((c : Thread nD τ).loc main_arg2))
            (featSums (m ((c : Thread nD τ).loc main_arg0)) (m ((c : Thread nD τ).loc main_arg1)))
            (fun r => counts (m ((c : Thread nD τ).loc main_arg0)) (ix1 r))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v19 (Pipeline.mem_restRefs_of main_v19 (by decide) (by decide))).trans (loss_eq m c),
      ((h c).1 3).trans (final_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c)))⟩)
    (run_main m ρ)

end Cert.KernelIdeal.Run

end
-- ==== Proof.RefValue.lean ====
/-
  The reference's second result, entry by entry, is the gradient of the centres, the feature sums and the counts.

  The reference divides the feature sums by the counts clamped below at one, subtracts the quotient from the
  centres and scales by count / (1 + count), each count broadcast along its class's row.
-/
import proofs.«107613_j60885456388837_1_alg».proof.Proof.Gen.ReferenceIdeal.Read
import proofs.«107613_j60885456388837_1_alg».proof.Proof.Spec
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.CentreGrad

/-- The scale's count at entry `(r, e)` is class `r`'s. -/
theorem scale_row (r : Fin 100000) (e : Fin 128) : idx_main_v15 (idx_main_v17 (ix2 r e)) = ix1 r :=
  funext fun a => Fin.ext (by match a with | ⟨0, _⟩ => rfl)

/-- The divisor's count at entry `(r, e)` is class `r`'s. -/
theorem divisor_row (r : Fin 100000) (e : Fin 128) : idx_main_v9 (idx_main_v10 (ix2 r e)) = ix1 r :=
  funext fun a => Fin.ext (by match a with | ⟨0, _⟩ => rfl)

/-- The reference's gradient is `grad` of the centres, its feature sums and its counts. -/
theorem grad_eq (y : (⟨S16384, .i32⟩ : BufTy).Contents (Elt Ideal)) (feat : (⟨S16384x128, .f32⟩ : BufTy).Contents (Elt Ideal))
    (cen : (⟨S100000x128, .f32⟩ : BufTy).Contents (Elt Ideal)) :
    val_main_v18 (F := Ideal) y feat cen
      = grad cen (val_main_v6 (F := Ideal) y feat) (fun r => val_main_v3 (F := Ideal) y (ix1 r)) := by
  funext i
  obtain ⟨r, e, rfl⟩ : ∃ (r : Fin 100000) (e : Fin 128), i = ix2 r e := ⟨i 0, i 1, eq_ix2 i⟩
  rw [grad_apply, val_main_v18_apply, val_main_v17_apply, val_main_v15_apply, val_main_v14_apply, val_main_v13_apply,
    val_main_v12_apply, val_main_cst_3_apply, val_main_v16_apply, val_main_v11_apply, val_main_v10_apply, val_main_v9_apply,
    val_main_v8_apply, val_main_v7_apply, val_main_cst_2_apply, scale_row, divisor_row]
  rfl

end Cert.ReferenceIdeal.RefValue

end
-- ==== Proof.lean ====
/- The centre loss and its gradient with respect to the class centres: a kernel against its jnp reference, over the
   extended reals.

   Both programs count the samples of each of 100000 classes and sum their 128 features by the same two
   scatter-adds over the labels, and both return the loss 0.005 · Σ (feat − centres[label])² from the same gather and
   the same sum. They differ in the gradient alone: the reference computes
   `count / (1 + count) · (centres − featSums / max count 1)` by whole-array operations with the counts broadcast along
   each row, while the kernel computes it 5000 rows at a time from blocks of the centres, of the feature sums and of the
   counts laid out as a column. Entry by entry these are one function of the same three arrays (`CentreGrad.grad`):
   the kernel's 20 blocks tile the rows, each block's entry `(p, q)` reads row `p` of its count column, and the
   reference's two broadcasts read class `r`'s count at entry `(r, e)`. No arithmetic law is needed, so the
   precondition is not opened. The kernel's idealization rewrote nothing, so it preserves the kernel trivially. -/
import proofs.«107613_j60885456388837_1_alg».proof.Defs
import proofs.«107613_j60885456388837_1_alg».proof.Proof.Gen.Kernel
import proofs.«107613_j60885456388837_1_alg».proof.Proof.Gen.Kernel.Skeleton
import proofs.«107613_j60885456388837_1_alg».proof.Proof.Gen.Kernel.Launch
import proofs.«107613_j60885456388837_1_alg».proof.Proof.Gen.Kernel.Points
import proofs.«107613_j60885456388837_1_alg».proof.Proof.Gen.Kernel.Frame
import proofs.«107613_j60885456388837_1_alg».proof.Proof.Gen.KernelIdeal
import proofs.«107613_j60885456388837_1_alg».proof.Proof.Gen.KernelIdeal.Skeleton
import proofs.«107613_j60885456388837_1_alg».proof.Proof.Gen.KernelIdeal.Launch
import proofs.«107613_j60885456388837_1_alg».proof.Proof.Gen.KernelIdeal.Points
import proofs.«107613_j60885456388837_1_alg».proof.Proof.Gen.KernelIdeal.Frame
import proofs.«107613_j60885456388837_1_alg».proof.Proof.Gen.ReferenceIdeal
import proofs.«107613_j60885456388837_1_alg».proof.Proof.Gen.Pre_finite_inputs
import proofs.«107613_j60885456388837_1_alg».proof.Proof.Gen.ReferenceIdeal.Run
import proofs.«107613_j60885456388837_1_alg».proof.Proof.Gen.ReferenceIdeal.Read
import proofs.«107613_j60885456388837_1_alg».proof.Proof.KernelRun
import proofs.«107613_j60885456388837_1_alg».proof.Proof.RefValue
import Idealize.ShloMosaic.Adequacy
import Idealize.ShloMosaic.Init

noncomputable section

namespace Cert.Proof

open Idealize.ShloMosaic Idealize.ShloMosaic.TcCoe Idealize.SL.Sem Cert.CentreGrad

/-! ## The two programs' shared host terms are the same functions -/

/-- The kernel program's counts are the reference's. -/
theorem counts_same (y : IVec Cert.KernelIdeal.S16384 32) :
    Cert.KernelIdeal.Run.counts y = Cert.ReferenceIdeal.Read.val_main_v3 (F := Ideal) y := rfl

/-- The kernel program's feature sums are the reference's. -/
theorem featSums_same (y : IVec Cert.KernelIdeal.S16384 32) (feat : FVec Ideal Cert.KernelIdeal.S16384x128 .f32) :
    Cert.KernelIdeal.Run.featSums y feat = Cert.ReferenceIdeal.Read.val_main_v6 (F := Ideal) y feat := rfl

/-- The kernel program's loss is the reference's. -/
theorem loss_same (y : IVec Cert.KernelIdeal.S16384 32) (feat : FVec Ideal Cert.KernelIdeal.S16384x128 .f32)
    (cen : FVec Ideal Cert.KernelIdeal.S100000x128 .f32) :
    Cert.KernelIdeal.Run.loss y feat cen = Cert.ReferenceIdeal.Read.val_main_v29 (F := Ideal) y feat cen := rfl

/-! ## The claims -/

theorem frame_k : Cert.frame_Kernel := fun m ρ _ => Cert.Kernel.Gen.frame m ρ

theorem frame_ki : Cert.frame_KernelIdeal := fun m ρ _ => Cert.KernelIdeal.Gen.frame m ρ

/-- The reference's run keeps its arguments. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the same loss and the same gradient of arguments that agree. -/
theorem algebraic : Cert.algebraic_KernelIdeal_ReferenceIdeal := by
  intro m ρ m' ρ' _ hagree
  refine ⟨_, _, Cert.KernelIdeal.Run.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [(hagree c).1, (hagree c).2.1, (hagree c).2.2]
    exact (Cert.ReferenceIdeal.Read.val_main_v29_eq _ _ _).trans (loss_same _ _ _).symm
  · rw [(hagree c).1, (hagree c).2.1, (hagree c).2.2]
    refine (Cert.ReferenceIdeal.Read.val_main_v18_eq _ _ _).trans ((Cert.ReferenceIdeal.RefValue.grad_eq _ _ _).trans ?_)
    rw [← featSums_same, ← counts_same]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
